-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x2048 : Shape := ⟨2, ![2048, 2048]⟩
abbrev S1x2048x2048 : Shape := ⟨3, ![1, 2048, 2048]⟩
abbrev S2x2048x2048 : Shape := ⟨3, ![2, 2048, 2048]⟩
abbrev S2x1x2048 : Shape := ⟨3, ![2, 1, 2048]⟩
abbrev S1x256x2048 : Shape := ⟨3, ![1, 256, 2048]⟩
abbrev S1x1x256 : Shape := ⟨3, ![1, 1, 256]⟩
abbrev S256x2048 : Shape := ⟨2, ![256, 2048]⟩
abbrev S256 : Shape := ⟨1, ![256]⟩
abbrev S1x256 : Shape := ⟨2, ![1, 256]⟩
abbrev S2x2048 : Shape := ⟨2, ![2, 2048]⟩
abbrev S1x2048 : Shape := ⟨2, ![1, 2048]⟩
abbrev S2048 : Shape := ⟨1, ![2048]⟩
abbrev S_ : Shape := ⟨0, ![]⟩

abbrev nBuf : Space → Nat
  | .hbm => 50
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S2x2048x2048, .f32⟩
  | .hbm, ⟨5, _⟩ => ⟨S2x2048x2048, .bf16⟩
  | .hbm, ⟨6, _⟩ => ⟨S2x2048x2048, .f32⟩
  | .hbm, ⟨7, _⟩ => ⟨S2x1x2048, .f32⟩
  | .hbm, ⟨8, _⟩ => ⟨S2x1x2048, .f32⟩
  | .hbm, ⟨9, _⟩ => ⟨S2x2048, .f32⟩
  | .hbm, ⟨10, _⟩ => ⟨S2x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048, .i1⟩
  | .hbm, ⟨26, _⟩ => ⟨S_, .f32⟩
  | .hbm, ⟨27, _⟩ => ⟨S_, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S2x2048, .f32⟩
  | .hbm, ⟨35, _⟩ => ⟨S1x2048, .f32⟩
  | .hbm, ⟨36, _⟩ => ⟨S2048, .f32⟩
  | .hbm, ⟨37, _⟩ => ⟨S1x2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S2048x2048_S1x2048x2048_1_2 : S2048x2048.BroadcastsInDim S1x2048x2048 (![1, 2] : Fin 2 → Fin S1x2048x2048.rank)
  concatenates_S1x2048x2048_S1x2048x2048_S2x2048x2048_d0 : Shape.Concatenates [S1x2048x2048, S1x2048x2048] S2x2048x2048 0
  bitsLt_bf16_f32 : FTy.bits .bf16 < FTy.bits .f32
  transposes_S2x2048x2048_S2x2048x2048_0_2_1 : S2x2048x2048.Transposes [0, 2, 1] S2x2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S256x2048_S256 : S256x2048.Reduces [1] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S2x1x2048_S2x2048 : S2x1x2048.ShapeCasts S2x2048
  slices_S2x2048_S1x2048_0_0 : S2x2048.Slices ![0, 0] S1x2048
  shapeCasts_S1x2048_S2048 : S1x2048.ShapeCasts S2048
  slices_S2x2048_S1x2048_1_0 : S2x2048.Slices ![1, 0] S1x2048
  reducesTo_S2048_S_d0 : S2048.ReducesTo [0] S_
  h_S_ : 0 < S_.numel
  bcast_S_S2x2048 : S_.BroadcastsInDim S2x2048 (![] : Fin 0 → Fin S2x2048.rank)
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x2048x2048.size a
  hwx0_0 : ∀ i : grid0.Coords, EltTy.bits .f32 = 32 ∨ (Rect.block (s := S2x2048x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S2x2048x2048.size a
  hwx0_1 : ∀ i : grid0.Coords, EltTy.bits .bf16 = 32 ∨ (Rect.block (s := S2x2048x2048) S1x2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S2x2048x2048.size a
  hwx0_2 : ∀ i : grid0.Coords, EltTy.bits .f32 = 32 ∨ (Rect.block (s := S2x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x2048.size a
  hwx0_3 : ∀ i : grid0.Coords, EltTy.bits .f32 = 32 ∨ (Rect.block (s := S2x1x2048) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x2048.size a
  hwx0_4 : ∀ i : grid0.Coords, EltTy.bits .f32 = 32 ∨ (Rect.block (s := S2x1x2048) S1x1x256.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v2) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S_ : Shape := ⟨0, ![]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .hbm, ⟨23, _⟩ => ⟨S2048, .i1⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .i1⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_cst_10 : Ref sig .tc := ⟨.hbm, 40, rfl⟩
abbrev main_v25 : Ref sig .tc := ⟨.hbm, 41, rfl⟩
abbrev main_v26 : Ref sig .tc := ⟨.hbm, 42, rfl⟩
abbrev main_cst_11 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_13 : Ref sig .tc := ⟨.hbm, 54, rfl⟩
abbrev main_v34 : Ref sig .tc := ⟨.hbm, 55, rfl⟩
abbrev main_cst_14 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_15 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  reducesTo_S2048_S_d0 : S2048.ReducesTo [0] S_
  transposes_S2048x2048_S2048x2048_1_0 : S2048x2048.Transposes [1, 0] S2048x2048
  bcast_S_S2048 : S_.BroadcastsInDim S2048 (![] : Fin 0 → Fin S2048.rank)
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Payload.lean ====
/-
  What one grid point computes, at an index. The point holds a block of 256 consecutive rows of one graph's
  matrix (`x0`, 1 × 256 × 2048), that graph's whole matrix (`x1`, 1 × 2048 × 2048) and the same 256 rows of the
  transposed matrix (`x2`). For row `q` of the block it stores the row sum `Σ_l x0(q, l)` and the sum over `n` of
  `(Σ_l x0(q, l) · x1(l, n)) · x2(q, n)`: the matrix product of the block with the whole matrix, multiplied entry by
  entry with the transposed rows and summed along each row. Changes of float format are the identity over the
  extended reals, and the unit axes of the stored 1 × 1 × 256 vectors carry no information.
-/
import proofs.«150449_j35811437314538_1_alg».proof.Proof.Gen.KernelIdeal.Skeleton
import proofs.«150449_j35811437314538_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

/-- A lane sum of a 256 × 2048 block from the zero word, at row `q`. -/
theorem laneSum_apply (x : FVec Ideal S256x2048 .f32) (h : S256x2048.Reduces [1] S256) (hφ : FKind.Formats .f32)
    (hacc : (0x00000000#32 : BitVec 32) = 0x00000000#32) (q : Fin 256) :
    multiReduction (F := Ideal) .add [1] S256 x 0x00000000#32 h hφ hacc (ix1 q) = ∑ l : Fin 2048, x (ix2 q l) := by
  refine (Ideal.multiReduction_add_single x 0x00000000#32 h hφ hacc (ix1 q)).trans ?_
  refine Finset.sum_congr rfl fun l _ => ?_
  exact congrArg x (funext fun a => Fin.ext (by match a with | ⟨0, _⟩ => rfl | ⟨1, _⟩ => rfl))

/-- A vector over the block's rows, given two leading unit axes, reads the vector. -/
theorem unit2_apply (v : FVec Ideal S256 .f32) (h1 : S256.ShapeCasts S1x256) (h2 : S1x256.ShapeCasts S1x1x256) (q : Fin 256) :
    shapeCast S1x1x256 (shapeCast S1x256 v h1) h2 (ix3 (0 : Fin 1) (0 : Fin 1) q) = v (ix1 q) := by
  refine (shapeCast_ab_1ab_apply _ h2 0 0 q).trans ?_
  exact shapeCast_a_1a_apply v h1 0 q

/-- The stored degrees: row `q`'s sum. -/
theorem pay3_apply (x0 : Vec Ideal S1x256x2048 .f32) (q : Fin 256) :
    k0_pay3 (F := Ideal) x0 (ix3 (0 : Fin 1) (0 : Fin 1) q) = ∑ l : Fin 2048, x0 (ix3 (0 : Fin 1) q l) := by
  unfold k0_pay3 k0_pay1
  refine (unit2_apply _ _ _ q).trans ?_
  refine (laneSum_apply _ _ _ _ q).trans ?_
  refine Finset.sum_congr rfl fun l _ => ?_
  exact shapeCast_1ab_ab_apply x0 _ q l

/-- The stored triangle weights: row `q` of (block · matrix) ∘ (transposed rows), summed. -/
theorem pay2_apply (x0 : Vec Ideal S1x256x2048 .f32) (x1 : Vec Ideal S1x2048x2048 .bf16) (x2 : Vec Ideal S1x256x2048 .f32) (q : Fin 256) :
    k0_pay2 (F := Ideal) x0 x1 x2 (ix3 (0 : Fin 1) (0 : Fin 1) q)
      = ∑ n : Fin 2048, (∑ l : Fin 2048, x0 (ix3 (0 : Fin 1) q l) * x1 (ix3 (0 : Fin 1) l n)) * x2 (ix3 (0 : Fin 1) q n) := by
  unfold k0_pay2 k0_pay1
  refine (unit2_apply _ _ _ q).trans ?_
  refine (laneSum_apply _ _ _ _ q).trans ?_
  refine Finset.sum_congr rfl fun n _ => ?_
  rw [mulf_apply]
  refine congrArg₂ (· * ·) ?_ (shapeCast_1ab_ab_apply x2 _ q n)
  refine (PlainDot.matmul_zero_apply 256 2048 2048 _ _ (ix2 q n)).trans ?_
  refine Finset.sum_congr rfl fun l _ => ?_
  refine congrArg₂ (· * ·) ?_ (shapeCast_1ab_ab_apply x1 _ l n)
  rw [truncf_apply]
  exact shapeCast_1ab_ab_apply x0 _ q l

end Cert.KernelIdeal.Val

end
-- ==== Proof.Stats.lean ====
/-
  Two weighted graphs on 2048 vertices, each given by its 2048 × 2048 matrix of edge weights `g`.
  Vertex `r`'s DEGREE is its row sum, `Σ_l g(r, l)`; its TRIANGLE WEIGHT is the `r`-th diagonal entry of the
  cube of the matrix, written without forming the cube: `Σ_n (Σ_l g(r, l) · g(l, n)) · g(n, r)`.
  This file states the two as functions of the matrix over the extended reals, and reads the host's forms of them
  — a row sum from the zero initial value; a row sum of the entrywise product of the matrix square with the
  transpose — at an index as exactly these sums.
-/
import Idealize.ShloMosaic.PureOps.Ideal.Laws
import Idealize.ShloMosaic.Lib.ValueIdx
import Idealize.ShloMosaic.Lib.ValueLayout
import Idealize.ShloMosaic.Lib.Pipeline.Value
import proofs.«150449_j35811437314538_1_alg».proof.Proof.LibPlainDot

noncomputable section

open scoped BigOperators

namespace GraphStats

open Idealize.ShloMosaic Idealize.ShloMosaic.ValueIdx

/-- A graph's weight matrix, a vector over its vertices, a scalar. -/
abbrev Mat : Shape := ⟨2, ![2048, 2048]⟩
abbrev Row : Shape := ⟨1, ![2048]⟩
abbrev Sc : Shape := ⟨0, ![]⟩

theorem mat_red : Mat.ReducesTo [1] Row := by decide
theorem mat_tr : Mat.Transposes [1, 0] Mat := by decide
theorem sc_pos0 : 0 < Sc.numel := by decide

/-- The degree of vertex `r`: the sum of row `r`. -/
def degAt (g : Mat.Idx → EReal) (r : Fin 2048) : EReal := ∑ l : Fin 2048, g (ix2 r l)

/-- The triangle weight of vertex `r`: entry `(r, r)` of the matrix cube, as the row sum of the square times the
    transpose. -/
def triAt (g : Mat.Idx → EReal) (r : Fin 2048) : EReal :=
  ∑ n : Fin 2048, (∑ l : Fin 2048, g (ix2 r l) * g (ix2 l n)) * g (ix2 n r)

/-- The degrees, and the triangle weights, as vectors over the vertices. -/
def degVec (g : FVec Ideal Mat .f32) : FVec Ideal Row .f32 := fun j => degAt g (j 0)
def triVec (g : FVec Ideal Mat .f32) : FVec Ideal Row .f32 := fun j => triAt g (j 0)

/-- The host's sum of a matrix along its rows, from an initial value, at a vertex. -/
theorem hostRowSum_apply (x : FVec Ideal Mat .f32) (v : FVec Ideal Sc .f32) (h : Mat.ReducesTo [1] Row) (h' : 0 < Sc.numel)
    (r : Fin 2048) :
    Host.reduceAdd x v h h' (ix1 r) = v (Shape.Idx.first h') + ∑ l : Fin 2048, x (ix2 r l) := by
  simp only [Host.reduceAdd, Ideal.hostReduceAdd_def]
  rw [Ideal.hostReduceAdd_single h (by decide)]
  refine congrArg (_ + ·) (Finset.sum_congr rfl fun k _ => ?_)
  exact congrArg x (funext fun a => Fin.ext (by match a with | ⟨0, _⟩ => rfl | ⟨1, _⟩ => rfl))

/-- The host's row sum of the weights from zero is the degree vector. -/
theorem hostRowSum_eq_degVec (g : FVec Ideal Mat .f32) (h : Mat.ReducesTo [1] Row) (h' : 0 < Sc.numel) :
    Host.reduceAdd g (constant (F := Ideal) Sc .f32 0x00000000#32) h h' = degVec g := by
  funext j
  obtain ⟨r, rfl⟩ : ∃ r : Fin 2048, j = ix1 r := ⟨j 0, eq_ix1 j⟩
  rw [hostRowSum_apply, constant_apply, Ideal.ofBits_zero_f32, zero_add]
  rfl

/-- The host's row sum, from zero, of the matrix square times the transpose is the triangle-weight vector. -/
theorem hostTri_eq_triVec (g : FVec Ideal Mat .f32) (D : DotDims Mat Mat Mat) (hD : D = DotDims.plain 2048 2048 2048)
    (ht : Mat.Transposes [1, 0] Mat) (h : Mat.ReducesTo [1] Row) (h' : 0 < Sc.numel) :
    Host.reduceAdd (mulf (Host.dotGeneral D none g g) (transpose Mat [1, 0] g ht)) (constant (F := Ideal) Sc .f32 0x00000000#32) h h'
      = triVec g := by
  subst hD
  funext j
  obtain ⟨r, rfl⟩ : ∃ r : Fin 2048, j = ix1 r := ⟨j 0, eq_ix1 j⟩
  rw [hostRowSum_apply, constant_apply, Ideal.ofBits_zero_f32, zero_add]
  show _ = triAt g r
  unfold triAt
  refine Finset.sum_congr rfl fun n _ => ?_
  rw [mulf_apply, transpose_ix2_apply]
  simp only [Host.dotGeneral]
  rw [PlainDot.dotGeneral_apply]

end GraphStats

end
-- ==== Proof.Tail.lean ====
/-
  From the degrees and triangle weights of two graphs to the three similarity scores.
  For vectors `a`, `b` over the 2048 vertices, `sim a b = exp (−(Σ_r |a r − b r|) / 2048)`. A vertex of degree `d`
  and triangle weight `t` has clustering coefficient `t / (d' · (d' − 1))` with `d' = 1` where `d < 2` and `d' = d`
  elsewhere. The scores are `sim` of the two degree vectors, `sim` of the two clustering vectors, and the mean of
  the two scores.
  One program keeps the two graphs' vectors apart; the other stacks them as the rows of a 2 × 2048 array (held as
  2 × 1 × 2048), computes the clustering coefficients on the stack, and cuts the rows out afterwards. Every operation
  on the stack acts entry by entry, so cutting a row out commutes with it: that is all this file proves.
-/
import Idealize.ShloMosaic.PureOps.Ideal.Laws
import Idealize.ShloMosaic.Lib.ValueIdx
import Idealize.ShloMosaic.Lib.ValueLayout
import Idealize.ShloMosaic.Lib.Pipeline.Value
import proofs.«150449_j35811437314538_1_alg».proof.Proof.Stats

noncomputable section

open scoped BigOperators

namespace GraphStats

open Idealize.ShloMosaic Idealize.ShloMosaic.ValueIdx

/-- The stack of two vertex vectors, the same with a unit middle axis, and one row of the stack still as a matrix. -/
abbrev Pair : Shape := ⟨2, ![2, 2048]⟩
abbrev PairK : Shape := ⟨3, ![2, 1, 2048]⟩
abbrev One : Shape := ⟨2, ![1, 2048]⟩

theorem row_red : Row.ReducesTo [0] Sc := by decide
theorem sc_pos : 0 < Sc.numel := by decide
theorem bcR : Sc.BroadcastsInDim Row (![] : Fin 0 → Fin Row.rank) := by decide
theorem bcP : Sc.BroadcastsInDim Pair (![] : Fin 0 → Fin Pair.rank) := by decide
theorem pk_sq : PairK.ShapeCasts Pair := by decide
theorem sl0 : Pair.Slices ![0, 0] One := by decide
theorem sl1 : Pair.Slices ![1, 0] One := by decide
theorem one_row : One.ShapeCasts Row := by decide

/-! ## The scores -/

/-- `exp (−mean |a − b|)`. -/
def sim (a b : FVec Ideal Row .f32) : FVec Ideal Sc .f32 :=
  Host.exp (Host.negf (Host.divf (Host.reduceAdd (Host.absf (subf a b)) (constant (F := Ideal) Sc .f32 0x00000000#32) row_red sc_pos)
    (constant (F := Ideal) Sc .f32 0x45000000#32)))

/-- The degree with every value below 2 replaced by 1, over any shape. -/
def safeDeg {s : Shape} (bc : Sc.BroadcastsInDim s (![] : Fin 0 → Fin s.rank)) (deg : FVec Ideal s .f32) : FVec Ideal s .f32 :=
  select (cmpf .olt deg (broadcastInDim s ![] bc (constant (F := Ideal) Sc .f32 0x40000000#32)))
    (broadcastInDim s ![] bc (id (constant (F := Ideal) Sc .f32 0x3F800000#32))) deg

/-- The clustering coefficients `t / (d' · (d' − 1))`, over any shape. -/
def clus {s : Shape} (bc : Sc.BroadcastsInDim s (![] : Fin 0 → Fin s.rank)) (tri deg : FVec Ideal s .f32) : FVec Ideal s .f32 :=
  Host.divf tri (mulf (safeDeg bc deg) (subf (safeDeg bc deg) (broadcastInDim s ![] bc (constant (F := Ideal) Sc .f32 0x3F800000#32))))

/-- The mean of two scores. -/
def overall (a b : FVec Ideal Sc .f32) : FVec Ideal Sc .f32 :=
  Host.divf (addf a b) (constant (F := Ideal) Sc .f32 0x40000000#32)

/-! ## Rows of the stack -/

/-- A scalar broadcast to any shape reads the scalar everywhere. -/
theorem bcastScalar_apply {α : Type} {s : Shape} (bc : Sc.BroadcastsInDim s (![] : Fin 0 → Fin s.rank)) (x : Sc.Idx → α) (j : s.Idx) :
    broadcastInDim s ![] bc x j = x ix0 :=
  broadcastInDim_apply _ bc x j ix0 (fun a => a.elim0)

/-- Row `o` of the stack, as a vector over the vertices. -/
def rowOf {α : Type} (o : Nat) (X : Pair.Idx → α) (hs : Pair.Slices ![o, 0] One) : Row.Idx → α :=
  shapeCast Row (extractStridedSlice One ![o, 0] X hs) one_row

theorem rowOf_apply {α : Type} (o : Nat) (X : Pair.Idx → α) (hs : Pair.Slices ![o, 0] One) (k : Fin 2) (hk : k.val = o) (r : Fin 2048) :
    rowOf o X hs (ix1 r) = X (ix2 k r) := by
  unfold rowOf
  rw [shapeCast_1a_a_apply]
  exact slice2_axis0_apply o X hs 0 r k (by rw [hk]; rfl)

/-- The stack with its unit middle axis dropped. -/
theorem squeeze_apply {α : Type} (D : PairK.Idx → α) (k : Fin 2) (r : Fin 2048) :
    shapeCast Pair D pk_sq (ix2 k r) = D (ix3 k (0 : Fin 1) r) :=
  shapeCast_apply D pk_sq _ _ (by
    rw [Shape.rowMajor_val_three, Shape.rowMajor_val_two]
    show (k.val * 1 + 0) * 2048 + r.val = k.val * 2048 + r.val
    omega)

/-- Cutting a row out of the stack commutes with the clustering coefficients. -/
theorem rowOf_clus (o : Nat) (hs : Pair.Slices ![o, 0] One) (k : Fin 2) (hk : k.val = o) (T D : FVec Ideal Pair .f32) :
    rowOf o (clus bcP T D) hs = clus bcR (rowOf o T hs) (rowOf o D hs) := by
  funext j
  obtain ⟨r, rfl⟩ : ∃ r : Fin 2048, j = ix1 r := ⟨j 0, eq_ix1 j⟩
  rw [rowOf_apply o _ hs k hk]
  have eP : ∀ x : Sc.Idx → Ideal .f32, broadcastInDim Pair ![] bcP x (ix2 k r) = x ix0 := fun x => bcastScalar_apply bcP x _
  have eR : ∀ x : Sc.Idx → Ideal .f32, broadcastInDim Row ![] bcR x (ix1 r) = x ix0 := fun x => bcastScalar_apply bcR x _
  simp only [clus, safeDeg, Host.divf, mulf_apply, subf_apply, select_apply, cmpf_apply, eP, eR, rowOf_apply o _ hs k hk]

/-! ## The stacked degrees and triangle weights -/

/-- The two graphs' degrees, stacked. -/
def degPair (g1 g2 : FVec Ideal Mat .f32) : FVec Ideal PairK .f32 :=
  fun i => degAt (if (i 0).val = 0 then g1 else g2) ⟨(i 2).val, (i 2).isLt⟩
/-- The two graphs' triangle weights, stacked. -/
def triPair (g1 g2 : FVec Ideal Mat .f32) : FVec Ideal PairK .f32 :=
  fun i => triAt (if (i 0).val = 0 then g1 else g2) ⟨(i 2).val, (i 2).isLt⟩

theorem row0_degPair (g1 g2 : FVec Ideal Mat .f32) : rowOf 0 (shapeCast Pair (degPair g1 g2) pk_sq) sl0 = degVec g1 := by
  funext j
  obtain ⟨r, rfl⟩ : ∃ r : Fin 2048, j = ix1 r := ⟨j 0, eq_ix1 j⟩
  rw [rowOf_apply 0 _ sl0 0 rfl, squeeze_apply]
  rfl
theorem row1_degPair (g1 g2 : FVec Ideal Mat .f32) : rowOf 1 (shapeCast Pair (degPair g1 g2) pk_sq) sl1 = degVec g2 := by
  funext j
  obtain ⟨r, rfl⟩ : ∃ r : Fin 2048, j = ix1 r := ⟨j 0, eq_ix1 j⟩
  rw [rowOf_apply 1 _ sl1 1 rfl, squeeze_apply]
  rfl
theorem row0_triPair (g1 g2 : FVec Ideal Mat .f32) : rowOf 0 (shapeCast Pair (triPair g1 g2) pk_sq) sl0 = triVec g1 := by
  funext j
  obtain ⟨r, rfl⟩ : ∃ r : Fin 2048, j = ix1 r := ⟨j 0, eq_ix1 j⟩
  rw [rowOf_apply 0 _ sl0 0 rfl, squeeze_apply]
  rfl
theorem row1_triPair (g1 g2 : FVec Ideal Mat .f32) : rowOf 1 (shapeCast Pair (triPair g1 g2) pk_sq) sl1 = triVec g2 := by
  funext j
  obtain ⟨r, rfl⟩ : ∃ r : Fin 2048, j = ix1 r := ⟨j 0, eq_ix1 j⟩
  rw [rowOf_apply 1 _ sl1 1 rfl, squeeze_apply]
  rfl

/-! ## The scores computed on the stack -/

/-- The degree score from the stacked degrees. -/
def stackDegSim (D : FVec Ideal PairK .f32) : FVec Ideal Sc .f32 :=
  sim (rowOf 0 (shapeCast Pair D pk_sq) sl0) (rowOf 1 (shapeCast Pair D pk_sq) sl1)
/-- The clustering score from the stacked triangle weights and degrees. -/
def stackClusSim (T D : FVec Ideal PairK .f32) : FVec Ideal Sc .f32 :=
  sim (rowOf 0 (clus bcP (shapeCast Pair T pk_sq) (shapeCast Pair D pk_sq)) sl0)
    (rowOf 1 (clus bcP (shapeCast Pair T pk_sq) (shapeCast Pair D pk_sq)) sl1)

theorem stackDegSim_eq (g1 g2 : FVec Ideal Mat .f32) : stackDegSim (degPair g1 g2) = sim (degVec g1) (degVec g2) := by
  unfold stackDegSim
  rw [row0_degPair, row1_degPair]

theorem stackClusSim_eq (g1 g2 : FVec Ideal Mat .f32) :
    stackClusSim (triPair g1 g2) (degPair g1 g2)
      = sim (clus bcR (triVec g1) (degVec g1)) (clus bcR (triVec g2) (degVec g2)) := by
  unfold stackClusSim
  rw [rowOf_clus 0 sl0 0 rfl, rowOf_clus 1 sl1 1 rfl, row0_degPair, row1_degPair, row0_triPair, row1_triPair]

end GraphStats

end
-- ==== Proof.Stack.lean ====
/-
  The two graphs' matrices stacked as one 2 × 2048 × 2048 array: each matrix is given a leading unit axis and the two
  are joined along it, so slab `k` of the stack is graph `k`'s matrix. From the stack `A`, its copy `B` in the narrower
  float format (the same numbers over the extended reals) and its slab-wise transpose `At`, the sums a grid of
  row blocks computes — `Σ_l A(k, r, l)` and `Σ_n (Σ_l A(k, r, l) · B(k, l, n)) · At(k, r, n)` — are graph `k`'s degree and
  triangle weight at vertex `r`.
-/
import Idealize.ShloMosaic.PureOps.Ideal.Laws
import Idealize.ShloMosaic.Lib.ValueIdx
import Idealize.ShloMosaic.Lib.ValueLayout
import Idealize.ShloMosaic.Lib.Pipeline.Value
import proofs.«150449_j35811437314538_1_alg».proof.Proof.Tail

noncomputable section

open scoped BigOperators

namespace GraphStats

open Idealize.ShloMosaic Idealize.ShloMosaic.ValueIdx

/-- The stack, and one matrix with a leading unit axis. -/
abbrev Stk : Shape := ⟨3, ![2, 2048, 2048]⟩
abbrev Lift : Shape := ⟨3, ![1, 2048, 2048]⟩

/-- A matrix with a leading unit axis reads the matrix. -/
theorem lift_apply {α : Type} (a : Mat.Idx → α) (hb : Mat.BroadcastsInDim Lift (![1, 2] : Fin 2 → Fin Lift.rank)) (u : Fin 1) (r l : Fin 2048) :
    broadcastInDim Lift ![1, 2] hb a (ix3 u r l) = a (ix2 r l) :=
  broadcastInDim_apply _ hb a _ _ (fun ax => by match ax with | ⟨0, _⟩ => rfl | ⟨1, _⟩ => rfl)

/-- The two matrices stacked. -/
def stack (a b : FVec Ideal Mat .f32) (hb : Mat.BroadcastsInDim Lift (![1, 2] : Fin 2 → Fin Lift.rank))
    (hc : Shape.Concatenates [Lift, Lift] Stk 0) : FVec Ideal Stk .f32 :=
  concatenate Stk 0 [⟨Lift, broadcastInDim Lift ![1, 2] hb a⟩, ⟨Lift, broadcastInDim Lift ![1, 2] hb b⟩] hc

theorem stack_apply0 (a b : FVec Ideal Mat .f32) (hb) (hc) (r l : Fin 2048) :
    stack a b hb hc (ix3 (0 : Fin 2) r l) = a (ix2 r l) := by
  unfold stack
  refine (concatenate_pair_apply_left (0 : Fin Stk.rank) _ _ hc (ix3 (0 : Fin 2) r l) rfl (ix3 (0 : Fin 1) r l)
    (fun ax => by match ax with | ⟨0, _⟩ => rfl | ⟨1, _⟩ => rfl | ⟨2, _⟩ => rfl)).trans ?_
  exact lift_apply a hb 0 r l

theorem stack_apply1 (a b : FVec Ideal Mat .f32) (hb) (hc) (r l : Fin 2048) :
    stack a b hb hc (ix3 (1 : Fin 2) r l) = b (ix2 r l) := by
  unfold stack
  refine (concatenate_pair_apply_right (0 : Fin Stk.rank) _ _ hc (ix3 (1 : Fin 2) r l) rfl rfl (ix3 (0 : Fin 1) r l)
    (fun ax hax => by match ax, hax with | ⟨0, _⟩, h => exact absurd rfl h | ⟨1, _⟩, _ => rfl | ⟨2, _⟩, _ => rfl) rfl).trans ?_
  exact lift_apply b hb 0 r l

theorem stack_apply (a b : FVec Ideal Mat .f32) (hb) (hc) (k : Fin 2) (r l : Fin 2048) :
    stack a b hb hc (ix3 k r l) = (if k.val = 0 then a else b) (ix2 r l) := by
  match k with
  | ⟨0, _⟩ => exact stack_apply0 a b hb hc r l
  | ⟨1, _⟩ => exact stack_apply1 a b hb hc r l

/-- The row sums of every slab, as a 2 × 1 × 2048 array. -/
def rowSums (A : Stk.Idx → EReal) : PairK.Idx → EReal := fun i =>
  ∑ l : Fin 2048, A (ix3 (⟨(i 0).val, (i 0).isLt⟩ : Fin 2) (⟨(i 2).val, (i 2).isLt⟩ : Fin 2048) l)

/-- Per slab: the rows of (slab of `A`) · (slab of `B`), times the rows of `At` entry by entry, summed. -/
def cubeDiag (A B At : Stk.Idx → EReal) : PairK.Idx → EReal := fun i =>
  ∑ n : Fin 2048, (∑ l : Fin 2048, A (ix3 (⟨(i 0).val, (i 0).isLt⟩ : Fin 2) (⟨(i 2).val, (i 2).isLt⟩ : Fin 2048) l)
      * B (ix3 (⟨(i 0).val, (i 0).isLt⟩ : Fin 2) l n))
    * At (ix3 (⟨(i 0).val, (i 0).isLt⟩ : Fin 2) (⟨(i 2).val, (i 2).isLt⟩ : Fin 2048) n)

theorem rowSums_stack (a b : FVec Ideal Mat .f32) (hb) (hc) : rowSums (stack a b hb hc) = degPair a b := by
  funext i
  unfold rowSums degPair degAt
  refine Finset.sum_congr rfl fun l _ => ?_
  exact stack_apply a b hb hc _ _ l

theorem cubeDiag_stack (a b : FVec Ideal Mat .f32) (hb) (hc) (hlt : FTy.bits .bf16 < FTy.bits .f32)
    (htr : Stk.Transposes [0, 2, 1] Stk) :
    cubeDiag (stack a b hb hc) (truncf .bf16 (stack a b hb hc) hlt) (transpose Stk [0, 2, 1] (stack a b hb hc) htr) = triPair a b := by
  funext i
  unfold cubeDiag triPair triAt
  refine Finset.sum_congr rfl fun n _ => ?_
  rw [transpose_ix3_021_apply, stack_apply]
  refine congrArg (· * _) (Finset.sum_congr rfl fun l _ => ?_)
  rw [truncf_apply, stack_apply, stack_apply]

end GraphStats

end
-- ==== Proof.Flush.lean ====
/-
  From what each grid point writes back to the two output arrays whole. The grid is 2 × 8: point (k, p) holds rows
  256·p … 256·p + 255 of slab `k` of the stacked matrices `A`, slab `k` of the narrow-format copy `B` whole, and the
  same rows of slab `k` of the transposed stack `At`; it writes entries (k, 0, 256·p + q), q < 256, of both outputs.
  Those sixteen blocks tile the 2 × 1 × 2048 outputs, so after the run the degree output holds the row sums of every
  slab of `A` and the triangle output the summed rows of (slab of `A`) · (slab of `B`) times the rows of `At`.
-/
import proofs.«150449_j35811437314538_1_alg».proof.Proof.Gen.KernelIdeal.Frame
import proofs.«150449_j35811437314538_1_alg».proof.Proof.Payload
import proofs.«150449_j35811437314538_1_alg».proof.Proof.Stack
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem offsets_zero : (![0, 0, 0] : Fin 3 → Nat) = fun _ => 0 := funext fun a => by fin_cases a <;> rfl

/-- The index maps over the grid: the row blocks of `A` and `At` sit at the output blocks' slab and position, `B`'s
    block is the slab whole, and both outputs' blocks are at (slab, 0, position). -/
theorem index_maps : ∀ t : Fin cfg0.N,
    win0_0.index t (0 : Fin 3) = win0_4.index t (0 : Fin 3) ∧ win0_0.index t (1 : Fin 3) = win0_4.index t (2 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (2 : Fin 3)
    ∧ win0_2.index t (2 : Fin 3) = 0
    ∧ win0_3.index t (0 : Fin 3) = win0_4.index t (0 : Fin 3) ∧ win0_3.index t (1 : Fin 3) = 0
    ∧ win0_3.index t (2 : Fin 3) = win0_4.index t (2 : Fin 3)
    ∧ win0_4.index t (1 : Fin 3) = 0 ∧ win0_4.index t (0 : Fin 3) ≤ 1 ∧ win0_4.index t (2 : Fin 3) ≤ 7 :=
  (by decide +kernel : ∀ t : Fin grid0.N, _)

/-- Every (slab, position) is some point's. -/
theorem index_onto : ∀ (k : Fin 2) (p : Fin 8), ∃ t : Fin cfg0.N,
    win0_4.index t (0 : Fin 3) = k.val ∧ win0_4.index t (2 : Fin 3) = p.val :=
  (by decide +kernel : ∀ (k : Fin 2) (p : Fin 8), ∃ t : Fin grid0.N, win0_4.index t (0 : Fin 3) = k.val ∧ win0_4.index t (2 : Fin 3) = p.val)

/-! ## The degree output (window 4) -/

/-- What point `t` writes back to the degree output is block `t` of the row sums of the stack. -/
theorem flushed_deg (c : Dev nD) (t : Fin cfg0.N) :
    (dats m 0 c).flushed 4 t = ((cfg0.win 4).blk t).view.read (Elt Ideal) (GraphStats.rowSums (V m c main_v2)) := by
  show (cfg0.win 4).cut (grid0.coords t) ((dats m 0 c).after 4 t) = _
  rw [after0_4]
  unfold out0_4
  rw [View.canon_unit_zero offsets_zero]
  simp only [View.ld_unit_zero (S := S1x256x2048) offsets_zero]
  obtain ⟨e00, e01, e02, e10, e11, e12, e20, e21, e22, e30, e31, e32, e41, b0, b2⟩ := index_maps t
  funext y
  have hy : y = ix3 (0 : Fin 1) (0 : Fin 1) (⟨(y 2).val, (y 2).isLt⟩ : Fin 256) := funext fun a => Fin.ext (by
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl)
  obtain ⟨q, rfl⟩ : ∃ q : Fin 256, y = ix3 (0 : Fin 1) (0 : Fin 1) q := ⟨_, hy⟩
  show k0_pay3 (iblk m c 0 t) (ix3 (0 : Fin 1) (0 : Fin 1) q)
    = GraphStats.rowSums (V m c main_v2) (((cfg0.win 4).blk t).view.emb (ix3 (0 : Fin 1) (0 : Fin 1) q))
  refine (pay3_apply (iblk m c 0 t) q).trans ?_
  unfold GraphStats.rowSums
  refine Finset.sum_congr rfl fun l _ => ?_
  show V m c main_v2 (((cfg0.win 0).blk t).view.emb (ix3 (0 : Fin 1) q l)) = V m c main_v2 _
  refine congrArg (V m c main_v2) (funext fun a => Fin.ext ?_)
  match a with
  | ⟨0, _⟩ => show win0_0.index t (0 : Fin 3) * 1 + 1 * 0 = win0_4.index t (0 : Fin 3) * 1 + 1 * 0; omega
  | ⟨1, _⟩ => show win0_0.index t (1 : Fin 3) * 256 + 1 * q.val = win0_4.index t (2 : Fin 3) * 256 + 1 * q.val; omega
  | ⟨2, _⟩ => show win0_0.index t (2 : Fin 3) * 2048 + 1 * l.val = l.val; omega

/-- An index of the degree output is in point `t`'s block iff each coordinate is in the block's range. -/
theorem mem_blk_deg (t : Fin cfg0.N) (i : S2x1x2048.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v5_1).slice (win0_4.rect t)).set ↔ _
  rw [View.set_slice_whole, Rect.mem_set_unit]
  exact Iff.rfl

/-- The blocks tile the degree output. -/
theorem cover_deg (i : S2x1x2048.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 2048 := (i 2).isLt
  obtain ⟨t, ht0, ht2⟩ := index_onto ⟨(i 0).val, h0⟩ ⟨(i 2).val / 256, by omega⟩
  obtain ⟨e00, e01, e02, e10, e11, e12, e20, e21, e22, e30, e31, e32, e41, b0, b2⟩ := index_maps t
  refine ⟨t, flush0_4 t, ?_⟩
  rw [mem_blk_deg]
  intro a
  match a with
  | ⟨0, _⟩ => show win0_4.index t (0 : Fin 3) * 1 ≤ (i 0).val ∧ (i 0).val < win0_4.index t (0 : Fin 3) * 1 + 1; simp only at ht0; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; simp only at ht2; omega

/-- The degree output after the run: the row sums of the stack. -/
theorem final_deg (c : Dev nD) : (dats m 0 c).arrAt 4 cfg0.N = GraphStats.rowSums (V m c main_v2) :=
  (dats m 0 c).arrAt_eq_of_cover 4 (GraphStats.rowSums (V m c main_v2)) (fun t _ => flushed_deg m c t) cover_deg

/-! ## The triangle output (window 3) -/

/-- What point `t` writes back to the triangle output is block `t` of the stack's summed rows of
    (slab of `A`) · (slab of `B`) times the rows of `At`. -/
theorem flushed_tri (c : Dev nD) (t : Fin cfg0.N) :
    (dats m 0 c).flushed 3 t = ((cfg0.win 3).blk t).view.read (Elt Ideal)
      (GraphStats.cubeDiag (V m c main_v2) (V m c main_v3) (V m c main_v4)) := by
  show (cfg0.win 3).cut (grid0.coords t) ((dats m 0 c).after 3 t) = _
  rw [after0_3]
  unfold out0_3
  rw [View.canon_unit_zero offsets_zero]
  simp only [View.ld_unit_zero (S := S1x256x2048) offsets_zero, View.ld_unit_zero (S := S1x2048x2048) offsets_zero]
  obtain ⟨e00, e01, e02, e10, e11, e12, e20, e21, e22, e30, e31, e32, e41, b0, b2⟩ := index_maps t
  funext y
  have hy : y = ix3 (0 : Fin 1) (0 : Fin 1) (⟨(y 2).val, (y 2).isLt⟩ : Fin 256) := funext fun a => Fin.ext (by
    match a with
    | ⟨0, _⟩ => have h0 : (y 0).val < 1 := (y 0).isLt; show (y 0).val = 0; omega
    | ⟨1, _⟩ => have h1 : (y 1).val < 1 := (y 1).isLt; show (y 1).val = 0; omega
    | ⟨2, _⟩ => rfl)
  obtain ⟨q, rfl⟩ : ∃ q : Fin 256, y = ix3 (0 : Fin 1) (0 : Fin 1) q := ⟨_, hy⟩
  show k0_pay2 (iblk m c 0 t) (iblk m c 1 t) (iblk m c 2 t) (ix3 (0 : Fin 1) (0 : Fin 1) q)
    = GraphStats.cubeDiag (V m c main_v2) (V m c main_v3) (V m c main_v4) (((cfg0.win 3).blk t).view.emb (ix3 (0 : Fin 1) (0 : Fin 1) q))
  refine (pay2_apply (iblk m c 0 t) (iblk m c 1 t) (iblk m c 2 t) q).trans ?_
  unfold GraphStats.cubeDiag
  refine Finset.sum_congr rfl fun n _ => ?_
  refine congrArg₂ (· * ·) (Finset.sum_congr rfl fun l _ => congrArg₂ (· * ·) ?_ ?_) ?_
  · show V m c main_v2 (((cfg0.win 0).blk t).view.emb (ix3 (0 : Fin 1) q l)) = V m c main_v2 _
    refine congrArg (V m c main_v2) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 256 + 1 * q.val = win0_3.index t (2 : Fin 3) * 256 + 1 * q.val; omega
    | ⟨2, _⟩ => show win0_0.index t (2 : Fin 3) * 2048 + 1 * l.val = l.val; omega
  · show V m c main_v3 (((cfg0.win 1).blk t).view.emb (ix3 (0 : Fin 1) l n)) = V m c main_v3 _
    refine congrArg (V m c main_v3) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 2048 + 1 * l.val = l.val; omega
    | ⟨2, _⟩ => show win0_1.index t (2 : Fin 3) * 2048 + 1 * n.val = n.val; omega
  · show V m c main_v4 (((cfg0.win 2).blk t).view.emb (ix3 (0 : Fin 1) q n)) = V m c main_v4 _
    refine congrArg (V m c main_v4) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 256 + 1 * q.val = win0_3.index t (2 : Fin 3) * 256 + 1 * q.val; omega
    | ⟨2, _⟩ => show win0_2.index t (2 : Fin 3) * 2048 + 1 * n.val = n.val; omega

/-- An index of the triangle output is in point `t`'s block iff each coordinate is in the block's range. -/
theorem mem_blk_tri (t : Fin cfg0.N) (i : S2x1x2048.Idx) :
    i ∈ ((cfg0.win 3).blk t).view.set ↔ ∀ a : Fin 3, win0_3.index t a * S1x1x256.size a ≤ (i a).val
      ∧ (i a).val < win0_3.index t a * S1x1x256.size a + S1x1x256.size a := by
  show i ∈ ((View.whole main_v5_0).slice (win0_3.rect t)).set ↔ _
  rw [View.set_slice_whole, Rect.mem_set_unit]
  exact Iff.rfl

/-- The blocks tile the triangle output. -/
theorem cover_tri (i : S2x1x2048.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 2048 := (i 2).isLt
  obtain ⟨t, ht0, ht2⟩ := index_onto ⟨(i 0).val, h0⟩ ⟨(i 2).val / 256, by omega⟩
  obtain ⟨e00, e01, e02, e10, e11, e12, e20, e21, e22, e30, e31, e32, e41, b0, b2⟩ := index_maps t
  refine ⟨t, flush0_3 t, ?_⟩
  rw [mem_blk_tri]
  intro a
  match a with
  | ⟨0, _⟩ => show win0_3.index t (0 : Fin 3) * 1 ≤ (i 0).val ∧ (i 0).val < win0_3.index t (0 : Fin 3) * 1 + 1; simp only at ht0; omega
  | ⟨1, _⟩ => show win0_3.index t (1 : Fin 3) * 1 ≤ (i 1).val ∧ (i 1).val < win0_3.index t (1 : Fin 3) * 1 + 1; omega
  | ⟨2, _⟩ => show win0_3.index t (2 : Fin 3) * 256 ≤ (i 2).val ∧ (i 2).val < win0_3.index t (2 : Fin 3) * 256 + 256; simp only at ht2; omega

/-- The triangle output after the run. -/
theorem final_tri (c : Dev nD) :
    (dats m 0 c).arrAt 3 cfg0.N = GraphStats.cubeDiag (V m c main_v2) (V m c main_v3) (V m c main_v4) :=
  (dats m 0 c).arrAt_eq_of_cover 3 _ (fun t _ => flushed_tri m c t) cover_tri

end Cert.KernelIdeal.Val

end
-- ==== Proof.KernelValue.lean ====
/-
  The kernel program's three results as functions of the two graphs' matrices. Before the grid runs, the host stacks the
  two matrices, copies the stack to the narrower float format and transposes each slab; after it, the host drops the
  outputs' unit axis, computes the clustering coefficients on the stacked triangle weights and degrees, cuts the two rows
  out and forms the three scores. With the outputs read as the stacked degrees and triangle weights of the two graphs,
  the results are the degree score, the clustering score and their mean of the two graphs.
-/
import proofs.«150449_j35811437314538_1_alg».proof.Proof.Gen.KernelIdeal.Frame
import proofs.«150449_j35811437314538_1_alg».proof.Proof.Flush
import proofs.«150449_j35811437314538_1_alg».proof.Proof.Stack
import Idealize.ShloMosaic.Lib.StableHlo.Run
import Idealize.ShloMosaic.Lib.Pipeline.Value

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

/-- The two graphs' matrices as launched on core `c`. -/
abbrev gA (c : Dev nD) : FVec Ideal S2048x2048 .f32 := m ((c : Thread nD τ).loc main_arg0)
abbrev gB (c : Dev nD) : FVec Ideal S2048x2048 .f32 := m ((c : Thread nD τ).loc main_arg1)

/-- The stack the host builds of them. -/
abbrev stk (c : Dev nD) : FVec Ideal S2x2048x2048 .f32 :=
  GraphStats.stack (gA m c) (gB m c) bcast_S2048x2048_S1x2048x2048_1_2 concatenates_S1x2048x2048_S1x2048x2048_S2x2048x2048_d0

/-! ## The arrays the grid finds -/

theorem entry_stack (c : Dev nD) : (V m c main_v2 : S2x2048x2048.Idx → EReal) = stk m c := by
  show StableHlo.after hostOps0 (fun b => m (c, b)) (Proc.devRef .tc main_v2) = _
  after_results
  rfl

theorem entry_narrow (c : Dev nD) : (V m c main_v3 : S2x2048x2048.Idx → EReal) = truncf .bf16 (stk m c) bitsLt_bf16_f32 := by
  show StableHlo.after hostOps0 (fun b => m (c, b)) (Proc.devRef .tc main_v3) = _
  after_results
  rfl

theorem entry_transposed (c : Dev nD) :
    (V m c main_v4 : S2x2048x2048.Idx → EReal) = transpose S2x2048x2048 [0, 2, 1] (stk m c) transposes_S2x2048x2048_S2x2048x2048_0_2_1 := by
  show StableHlo.after hostOps0 (fun b => m (c, b)) (Proc.devRef .tc main_v4) = _
  after_results
  rfl

/-! ## The two outputs after the grid -/

theorem out_deg (c : Dev nD) : (dats m 0 c).arrAt 4 cfg0.N = GraphStats.degPair (gA m c) (gB m c) := by
  rw [final_deg, entry_stack]
  exact GraphStats.rowSums_stack _ _ _ _

theorem out_tri (c : Dev nD) : (dats m 0 c).arrAt 3 cfg0.N = GraphStats.triPair (gA m c) (gB m c) := by
  rw [final_tri, entry_stack, entry_narrow, entry_transposed]
  exact GraphStats.cubeDiag_stack _ _ _ _ _ _

/-! ## The host operations after the grid -/

/-- What core `c`'s buffers hold when the grid is done: the outputs as computed, everything else as the grid found it. -/
abbrev afterGrid (c : Dev nD) : Valuation τ sig (Elt Ideal) :=
  Pipeline.withArrays spec0 c (V0 m c) (fun w => (dats m 0 c).arrAt w cfg0.N)

theorem afterGrid_deg (c : Dev nD) : afterGrid m c (Proc.devRef .tc main_v5_1) = GraphStats.degPair (gA m c) (gB m c) :=
  (Pipeline.withArrays_arr spec0 launch0.win.arr_inj c _ _ 4).trans (out_deg m c)

theorem afterGrid_tri (c : Dev nD) : afterGrid m c (Proc.devRef .tc main_v5_0) = GraphStats.triPair (gA m c) (gB m c) :=
  (Pipeline.withArrays_arr spec0 launch0.win.arr_inj c _ _ 3).trans (out_tri m c)

/-- The program's buffers at the end, on core `c`. -/
abbrev atEnd (c : Dev nD) (b : Ref sig .tc) : Buf (Elt Ideal) ((c.tc : Thread nD τ).loc b) :=
  Pipeline.afterTail₀ cfgs (dats m) 0 (V0 m) [hostOps1, hostOps1_1, hostOps1_2] c b

/-- The first result is the degree score computed on the stacked degrees. -/
theorem atEnd_degSim (c : Dev nD) :
    atEnd m c main_v17 = GraphStats.stackDegSim (afterGrid m c (Proc.devRef .tc main_v5_1)) := by
  unfold atEnd Pipeline.afterTail₀
  simp only [hostOps1, hostOps1_1, hostOps1_2, List.flatten_cons, List.flatten_nil, List.append_nil, List.cons_append, List.nil_append]
  after_results
  rfl

set_option maxHeartbeats 1600000 in
/-- The second result is the clustering score computed on the stacked triangle weights and degrees. -/
theorem atEnd_clusSim (c : Dev nD) :
    atEnd m c main_v34
      = GraphStats.stackClusSim (afterGrid m c (Proc.devRef .tc main_v5_0)) (afterGrid m c (Proc.devRef .tc main_v5_1)) := by
  unfold atEnd Pipeline.afterTail₀
  simp only [hostOps1, hostOps1_1, hostOps1_2, List.flatten_cons, List.flatten_nil, List.append_nil, List.cons_append, List.nil_append]
  after_results_simp
  rfl

set_option maxHeartbeats 1600000 in
/-- The third result is the mean of the two. -/
theorem atEnd_overall (c : Dev nD) :
    atEnd m c main_v36 = GraphStats.overall (GraphStats.stackDegSim (afterGrid m c (Proc.devRef .tc main_v5_1)))
      (GraphStats.stackClusSim (afterGrid m c (Proc.devRef .tc main_v5_0)) (afterGrid m c (Proc.devRef .tc main_v5_1))) := by
  unfold atEnd Pipeline.afterTail₀
  simp only [hostOps1, hostOps1_1, hostOps1_2, List.flatten_cons, List.flatten_nil, List.append_nil, List.cons_append, List.nil_append]
  after_results_simp
  rfl

/-! ## The run -/

open GraphStats in
/-- Every weakly fair execution of the kernel program ends with the degree score, the clustering score and their mean
    of the two graphs in its results, and the matrices as launched. -/
theorem run (ρ : Dev nD → PrngReg) : θ_run defs (onTc (τ := τ) (main (F := Ideal))) ⟨m, fun _ => 0, ρ⟩ fun r => ∀ c : Dev nD,
      r.2.mem ((c.tc : Thread nD τ).loc main_v17) = sim (degVec (gA m c)) (degVec (gB m c))
      ∧ r.2.mem ((c.tc : Thread nD τ).loc main_v34)
          = sim (clus bcR (triVec (gA m c)) (degVec (gA m c))) (clus bcR (triVec (gB m c)) (degVec (gB m c)))
      ∧ r.2.mem ((c.tc : Thread nD τ).loc main_v36)
          = overall (sim (degVec (gA m c)) (degVec (gB m c)))
              (sim (clus bcR (triVec (gA m c)) (degVec (gA m c))) (clus bcR (triVec (gB m c)) (degVec (gB m c))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have e17 : ∀ c, atEnd m c main_v17 = sim (degVec (gA m c)) (degVec (gB m c)) := fun c => by
    rw [atEnd_degSim, afterGrid_deg]; exact stackDegSim_eq _ _
  have e34 : ∀ c, atEnd m c main_v34
      = sim (clus bcR (triVec (gA m c)) (degVec (gA m c))) (clus bcR (triVec (gB m c)) (degVec (gB m c))) := fun c => by
    rw [atEnd_clusSim, afterGrid_deg, afterGrid_tri]; exact stackClusSim_eq _ _
  refine (θ_run defs _ _).mono (fun r h c => ⟨?_, ?_, ?_, ?_, ?_⟩) (run_main m ρ)
  · exact ((h c).2 main_v17 (Pipeline.mem_restRefs_of main_v17 (by decide) (by decide))).trans (e17 c)
  · exact ((h c).2 main_v34 (Pipeline.mem_restRefs_of main_v34 (by decide) (by decide))).trans (e34 c)
  · refine ((h c).2 main_v36 (Pipeline.mem_restRefs_of main_v36 (by decide) (by decide))).trans ?_
    refine (atEnd_overall m c).trans ?_
    rw [afterGrid_deg, afterGrid_tri, stackDegSim_eq, stackClusSim_eq]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Val

end
-- ==== Proof.RefValue.lean ====
/-
  The reference program's three results as functions of the two graphs' matrices: its row sums are the degree
  vectors, its row sums of the matrix square times the transpose the triangle-weight vectors, and the rest of the
  program is the scores' definition read off directly.
-/
import proofs.«150449_j35811437314538_1_alg».proof.Proof.Gen.ReferenceIdeal.Run
import proofs.«150449_j35811437314538_1_alg».proof.Proof.Tail

noncomputable section

namespace Cert.ReferenceIdeal.Val

open Cert.ReferenceIdeal Cert.ReferenceIdeal.Gen Idealize.ShloMosaic Idealize.ShloMosaic.TcCoe Idealize.SL.Sem
open GraphStats

variable (m : (ℓ : Loc nD τ sig) → Buf (Elt Ideal) ℓ) (ρ : Dev nD → PrngReg)

/-- The two graphs' matrices as launched on core `c`. -/
abbrev gA (c : Dev nD) : FVec Ideal S2048x2048 .f32 := m ((c.tc : Thread nD τ).loc main_arg0)
abbrev gB (c : Dev nD) : FVec Ideal S2048x2048 .f32 := m ((c.tc : Thread nD τ).loc main_arg1)

/-- Every weakly fair execution of the reference ends with the degree score, the clustering score and their mean of
    the two graphs in its results, and the matrices as launched. -/
theorem run : θ_run defs (onTc (τ := τ) (main (F := Ideal))) ⟨m, fun _ => 0, ρ⟩ fun r => ∀ c : Dev nD,
      r.2.mem ((c.tc : Thread nD τ).loc main_v7) = sim (degVec (gA m c)) (degVec (gB m c))
      ∧ r.2.mem ((c.tc : Thread nD τ).loc main_v37)
          = sim (clus bcR (triVec (gA m c)) (degVec (gA m c))) (clus bcR (triVec (gB m c)) (degVec (gB m c)))
      ∧ r.2.mem ((c.tc : Thread nD τ).loc main_v39)
          = overall (sim (degVec (gA m c)) (degVec (gB m c)))
              (sim (clus bcR (triVec (gA m c)) (degVec (gA m c))) (clus bcR (triVec (gB m c)) (degVec (gB m c))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2.1.trans ?_, (h c).2.2.2⟩)
    (Cert.ReferenceIdeal.Value.run (F := Ideal) m ρ)
  · rw [← hostRowSum_eq_degVec (gA m c) mat_red sc_pos0, ← hostRowSum_eq_degVec (gB m c) mat_red sc_pos0]
    rfl
  · rw [← hostTri_eq_triVec (gA m c) _ rfl mat_tr mat_red sc_pos0, ← hostTri_eq_triVec (gB m c) _ rfl mat_tr mat_red sc_pos0,
      ← hostRowSum_eq_degVec (gA m c) mat_red sc_pos0, ← hostRowSum_eq_degVec (gB m c) mat_red sc_pos0]
    rfl
  · rw [← hostTri_eq_triVec (gA m c) _ rfl mat_tr mat_red sc_pos0, ← hostTri_eq_triVec (gB m c) _ rfl mat_tr mat_red sc_pos0,
      ← hostRowSum_eq_degVec (gA m c) mat_red sc_pos0, ← hostRowSum_eq_degVec (gB m c) mat_red sc_pos0]
    rfl

end Cert.ReferenceIdeal.Val

end
-- ==== Proof.lean ====
/-
  The kernel program and the reference compute the same three similarity scores of two weighted graphs on 2048
  vertices, given by their 2048 × 2048 weight matrices `g`:
    the degree score      exp (−mean_r |d₁(r) − d₂(r)|),           d(r) = Σ_l g(r, l);
    the clustering score  exp (−mean_r |c₁(r) − c₂(r)|),           c(r) = t(r) / (d'(r) · (d'(r) − 1)),
                          t(r) = Σ_n (Σ_l g(r, l) · g(l, n)) · g(n, r),  d' = 1 where d < 2, else d;
    and the mean of the two.
  The reference computes d and t for each graph with a host row sum, a host matrix product and a transpose. The
  kernel program stacks the two matrices, and a 2 × 8 grid of row blocks computes d and t for 256 vertices of one
  graph at a time — the block's rows times the whole matrix on the matrix unit, multiplied entry by entry with the
  same rows of the transposed matrix and summed along each row — into two 2 × 1 × 2048 outputs; the host then forms
  the scores on the stacked vectors and cuts the two graphs' rows out. Over the extended reals both sides are the
  same sums in the same order of summation, the float-format changes are the identity, and every host operation
  after the sums is the same operation on both sides, applied entry by entry: no algebraic law and no finiteness of the
  inputs is needed.
  The three frames are the generated frame runs (the reference's its run with the results dropped); no idealization
  rewrite was applied, so the kernel program at the extended reals is its own text.
-/
import proofs.«150449_j35811437314538_1_alg».proof.Defs
import proofs.«150449_j35811437314538_1_alg».proof.Proof.Gen.Kernel
import proofs.«150449_j35811437314538_1_alg».proof.Proof.Gen.Kernel.Skeleton
import proofs.«150449_j35811437314538_1_alg».proof.Proof.Gen.Kernel.Launch
import proofs.«150449_j35811437314538_1_alg».proof.Proof.Gen.Kernel.Points
import proofs.«150449_j35811437314538_1_alg».proof.Proof.Gen.Kernel.Frame
import proofs.«150449_j35811437314538_1_alg».proof.Proof.Gen.KernelIdeal
import proofs.«150449_j35811437314538_1_alg».proof.Proof.Gen.KernelIdeal.Skeleton
import proofs.«150449_j35811437314538_1_alg».proof.Proof.Gen.KernelIdeal.Launch
import proofs.«150449_j35811437314538_1_alg».proof.Proof.Gen.KernelIdeal.Points
import proofs.«150449_j35811437314538_1_alg».proof.Proof.Gen.KernelIdeal.Frame
import proofs.«150449_j35811437314538_1_alg».proof.Proof.Gen.ReferenceIdeal
import proofs.«150449_j35811437314538_1_alg».proof.Proof.Gen.Pre_finite_inputs
import proofs.«150449_j35811437314538_1_alg».proof.Proof.Gen.ReferenceIdeal.Run
import proofs.«150449_j35811437314538_1_alg».proof.Proof.KernelValue
import proofs.«150449_j35811437314538_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the two matrices, both programs end with the three scores of those matrices. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ?_) (Cert.ReferenceIdeal.Val.run m' ρ')
  obtain ⟨h1, h2, h3, h4, h5⟩ := h c
  unfold Cert.ReferenceIdeal.Val.gA Cert.ReferenceIdeal.Val.gB at h1 h2 h3
  rw [(hagree c).1, (hagree c).2] at h1 h2 h3
  exact ⟨h1, h2, h3, h4, h5⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
